-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts]

def fn {F : FTy → Type} [FloatOps F] (main_arg0 : FVec F S8192x8192 .f32) (main_arg1 : IVec S8192x8192 32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_c_0 : IVec S_ 32 := constantI S_ 32 0#32
  let main_v4 : IVec S8192x8192 32 := broadcastInDim S8192x8192 ![] bcast_S_S8192x8192 main_c_0
  let main_v5 : IVec S8192x8192 1 := cmpi .eq main_arg1 main_v4
  let main_c_1 : IVec S_ 32 := constantI S_ 32 1#32
  let main_v6 : IVec S8192x8192 32 := broadcastInDim S8192x8192 ![] bcast_S_S8192x8192 main_c_1
  let main_v7 : IVec S8192x8192 1 := cmpi .eq main_arg1 main_v6
  let main_v8 : IVec S8192x8192 1 := ori main_v5 main_v7
  let main_c_2 : IVec S_ 1 := constantI S_ 1 1#1
  let main_v9 : IVec S_ 1 := (fun x v => Host.reduce IntOp.andi x v reducesTo_S8192x8192_S_d0_1 h_S_) main_v8 main_c_2
  let main_v10 : IVec S_ 1 := andi main_v3 main_v9
  main_v10
-- ==== Kernel.lean ====
abbrev S8192x8192 : Shape := ⟨2, ![8192, 8192]⟩
abbrev S2x1x1 : Shape := ⟨3, ![2, 1, 1]⟩
abbrev S256x8192 : Shape := ⟨2, ![256, 8192]⟩
abbrev S1x1x1 : Shape := ⟨3, ![1, 1, 1]⟩
abbrev S1x1 : Shape := ⟨2, ![1, 1]⟩
abbrev S256 : Shape := ⟨1, ![256]⟩
abbrev S256x1 : Shape := ⟨2, ![256, 1]⟩
abbrev S1 : Shape := ⟨1, ![1]⟩
abbrev S_ : Shape := ⟨0, ![]⟩

abbrev nBuf : Space → Nat
  | .hbm => 8
  | .vmem => 7
  | .smem => 0
  | _ => 0

abbrev bufTy : (tb : Table) → Fin (tcTables nBuf tb) → BufTy
  | .hbm, ⟨0, _⟩ => ⟨S8192x8192, .f32⟩
  | .hbm, ⟨1, _⟩ => ⟨S8192x8192, .i32⟩
  | .hbm, ⟨2, _⟩ => ⟨S2x1x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S256x8192, .f32⟩
  | .local _ .vmem, ⟨1, _⟩ => ⟨S256x8192, .f32⟩
  | .local _ .vmem, ⟨2, _⟩ => ⟨S256x8192, .i32⟩
  | .local _ .vmem, ⟨3, _⟩ => ⟨S256x8192, .i32⟩
  | .local _ .vmem, ⟨4, _⟩ => ⟨S1x1x1, .f32⟩
  | .local _ .vmem, ⟨5, _⟩ => ⟨S1x1x1, .f32⟩
  | .local _ .vmem, ⟨6, _⟩ => ⟨S1x1, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v36 : BitVec 1 := Scalar.cmpi .eq arg1 c15_i32
  let v37 : BitVec 32 := Scalar.extui v36
  let c0_i32_14 : BitVec 32 := 0#32
  let v38 : BitVec 1 := Scalar.cmpi .ne v37 c0_i32_14
  v38

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S256x8192_S256x8192_0_0 : ∀ a, (![0, 0] : Fin 2 → Nat) a + S256x8192.size a ≤ S256x8192.size a
  h_S256x8192 : 0 < S256x8192.numel
  reduces_S256x8192_S256 : S256x8192.Reduces [1] S256
  shapeCasts_S256_S256x1 : S256.ShapeCasts S256x1
  reduces_S256x1_S1 : S256x1.Reduces [0] S1
  shapeCasts_S1_S1x1 : S1.ShapeCasts S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S8192x8192.size a
  hwx0_1 : ∀ i : grid0.Coords, EltTy.bits .i32 = 32 ∨ (Rect.block (s := S8192x8192) S256x8192.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)

variable [Facts₀]

abbrev win0_0 : Pipeline.Window sig grid0 :=
  Pipeline.Window.ofSpec (Memref.whole main_arg0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x8192 : Shape := ⟨2, ![8192, 8192]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x8192, .i32⟩
  | .hbm, ⟨2, _⟩ => ⟨S8192x8192, .f32⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S8192x8192, .f32⟩
  | .hbm, ⟨7, _⟩ => ⟨S8192x8192, .f32⟩
  | .hbm, ⟨8, _⟩ => ⟨S8192x8192, .i1⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S8192x8192, .i1⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S8192x8192, .f32⟩
  | .hbm, ⟨28, _⟩ => ⟨S8192x8192, .f32⟩
  | .hbm, ⟨29, _⟩ => ⟨S8192x8192, .f32⟩
  | .hbm, ⟨30, _⟩ => ⟨S8192x8192, .f32⟩
  | .hbm, ⟨31, _⟩ => ⟨S8192x8192, .f32⟩
  | .hbm, ⟨32, _⟩ => ⟨S8192x8192, .f32⟩
  | .hbm, ⟨33, _⟩ => ⟨S_, .i32⟩
  | .hbm, ⟨34, _⟩ => ⟨S8192x8192, .i32⟩
  | .hbm, ⟨35, _⟩ => ⟨S8192x8192, .i1⟩
  | .hbm, ⟨36, _⟩ => ⟨S8192x8192, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_v9 : Ref sig .tc := ⟨.hbm, 13, rfl⟩
abbrev main_call0_v10 : Ref sig .tc := ⟨.hbm, 14, rfl⟩
abbrev main_call0_v11 : Ref sig .tc := ⟨.hbm, 15, rfl⟩
abbrev main_v1 : Ref sig .tc := ⟨.hbm, 16, rfl⟩
abbrev main_v2 : Ref sig .tc := ⟨.hbm, 17, rfl⟩
abbrev main_call1_cst : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_call1_v5 : Ref sig .tc := ⟨.hbm, 24, rfl⟩
abbrev main_call1_v6 : Ref sig .tc := ⟨.hbm, 25, rfl⟩
abbrev main_call1_v7 : Ref sig .tc := ⟨.hbm, 26, rfl⟩
abbrev main_call1_v8 : Ref sig .tc := ⟨.hbm, 27, rfl⟩
abbrev main_call1_v9 : Ref sig .tc := ⟨.hbm, 28, rfl⟩
abbrev main_call1_v10 : Ref sig .tc := ⟨.hbm, 29, rfl⟩
abbrev main_call1_v11 : Ref sig .tc := ⟨.hbm, 30, rfl⟩
abbrev main_v3 : Ref sig .tc := ⟨.hbm, 31, rfl⟩
abbrev main_v4 : Ref sig .tc := ⟨.hbm, 32, rfl⟩
abbrev main_c : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_cst : Ref sig .tc := ⟨.hbm, 37, rfl⟩
abbrev main_v8 : Ref sig .tc := ⟨.hbm, 38, rfl⟩
abbrev main_cst_0 : Ref sig .tc := ⟨.hbm, 39, rfl⟩
abbrev main_v9 : Ref sig .tc := ⟨.hbm, 40, rfl⟩
abbrev main_v10 : Ref sig .tc := ⟨.hbm, 41, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts₀]

class Facts : Prop extends Facts₀ where

variable [Facts]
-- ==== Proof.Elem.lean ====
/-
  The element-level mathematics of the binary cross-entropy loss, over the extended reals.

  For a logit x and a label t in {0, 1} the loss of one element is softplus(x) when t = 0 and softplus(-x) when
  t = 1, written here with its sign as the programs carry it: elem x t = -softplus(x) or -softplus(-x). The kernel
  reaches it by ONE softplus of the signed logit x * (1 - 2t): the factor 1 - 2t is 1 at t = 0 and -1 at t = 1, and
  x * 1 = x, x * (-1) = -x hold on every extended real, the infinities included. The reference selects between the
  two softplus values on t = 0. Both spell softplus(v) as max(v, 0) + log(1 + exp(-|v|)) behind a test "v - 0 is not
  equal to itself", which no extended real passes.

  The mean divides the total by 2^26 and negates; the two programs do these in opposite orders, and
  (-s) / d = -(s / d) for a nonzero real d. The total is a sum over all 8192 x 8192 elements; the kernel groups it by
  32 row blocks of 256 rows, which is a re-indexing of the same finite sum.
-/
import Idealize.ShloMosaic.PureOps.Ideal
import Idealize.ShloMosaic.PureOps.Ideal.Laws
import Idealize.ShloMosaic.Lib.ValueIdx

noncomputable section

namespace Cert.Bce

open Idealize.ShloMosaic

/-! ## The float constants the two programs spell -/

/-- The word of 1.0 denotes 1. -/
theorem ofBits_one : Ideal.ofBits .f32 0x3F800000#32 = 1 := by
  simp [Ideal.ofBits, Ideal.ieee, -EReal.coe_mul]; norm_num

/-- The word of 2.0 denotes the real 2. -/
theorem ofBits_two : Ideal.ofBits .f32 0x40000000#32 = ((2 : ℝ) : EReal) := by
  simp [Ideal.ofBits, Ideal.ieee, -EReal.coe_mul]; norm_num

/-- The word 0x4C800000 denotes the real 2^26 = 67108864, the number of elements. -/
theorem ofBits_count : Ideal.ofBits .f32 0x4C800000#32 = ((67108864 : ℝ) : EReal) := by
  simp [Ideal.ofBits, Ideal.ieee, -EReal.coe_mul]; norm_num

/-! ## softplus and the loss of one element -/

/-- softplus(v) = max(v, 0) + log(1 + exp(-|v|)), with |v| spelt max(v, -v). -/
def softplus (v : EReal) : EReal := max v 0 + Ideal.log1p (Ideal.exp (-(max v (-v))))

/-- One element's signed loss: -softplus(x) for the label 0, -softplus(-x) for any other label. -/
def elem (x : EReal) (t : BitVec 32) : EReal := if t = 0#32 then -(softplus x) else -(softplus (-x))

/-- softplus as both programs print it: guarded by "v - 0 differs from itself" (never, on the extended reals), with
    the zero a float constant and the negations of the kernel written as subtractions from zero. -/
def softplusGuarded (p : CmpFPredicate) (hp : p = .one ∨ p = .une) (v : EReal) : EReal :=
  Scalar.select (Ideal.cmp p (v - Ideal.ofBits .f32 0x00000000#32) (v - Ideal.ofBits .f32 0x00000000#32))
    (v + Ideal.ofBits .f32 0x00000000#32)
    (max v (Ideal.ofBits .f32 0x00000000#32)
      + Ideal.log1p (Ideal.exp (-(max (v - Ideal.ofBits .f32 0x00000000#32) (-(v - Ideal.ofBits .f32 0x00000000#32))))))

theorem cmp_ne_self (p : CmpFPredicate) (hp : p = .one ∨ p = .une) (a : EReal) : Ideal.cmp p a a = 0#1 := by
  rcases hp with rfl | rfl <;> simp [Ideal.cmp]

theorem softplusGuarded_eq (p : CmpFPredicate) (hp : p = .one ∨ p = .une) (v : EReal) :
    softplusGuarded p hp v = softplus v := by
  unfold softplusGuarded softplus
  rw [cmp_ne_self p hp, ValueIdx.select_zero, Ideal.ofBits_zero_f32, sub_zero]

/-- The kernel's element: one softplus of the signed logit x * (1 - 2 t), negated as 0 - softplus. -/
def kernelElem (x : EReal) (t : BitVec 32) : EReal :=
  Ideal.ofBits .f32 0x00000000#32
    - Scalar.select
        (Ideal.cmp .one
          (x * (Ideal.ofBits .f32 0x3F800000#32 - Ideal.ofBits .f32 0x40000000#32 * ((t.toInt : ℝ) : EReal)) - Ideal.ofBits .f32 0x00000000#32)
          (x * (Ideal.ofBits .f32 0x3F800000#32 - Ideal.ofBits .f32 0x40000000#32 * ((t.toInt : ℝ) : EReal)) - Ideal.ofBits .f32 0x00000000#32))
        (x * (Ideal.ofBits .f32 0x3F800000#32 - Ideal.ofBits .f32 0x40000000#32 * ((t.toInt : ℝ) : EReal)) + Ideal.ofBits .f32 0x00000000#32)
        (max (x * (Ideal.ofBits .f32 0x3F800000#32 - Ideal.ofBits .f32 0x40000000#32 * ((t.toInt : ℝ) : EReal))) (Ideal.ofBits .f32 0x00000000#32)
          + Ideal.log1p (Ideal.exp (Ideal.ofBits .f32 0x00000000#32
              - max (x * (Ideal.ofBits .f32 0x3F800000#32 - Ideal.ofBits .f32 0x40000000#32 * ((t.toInt : ℝ) : EReal)) - Ideal.ofBits .f32 0x00000000#32)
                  (-(x * (Ideal.ofBits .f32 0x3F800000#32 - Ideal.ofBits .f32 0x40000000#32 * ((t.toInt : ℝ) : EReal)) - Ideal.ofBits .f32 0x00000000#32)))))

/-- The sign factor 1 - 2t at the label 0 is 1. -/
theorem sign_zero : Ideal.ofBits .f32 0x3F800000#32 - Ideal.ofBits .f32 0x40000000#32 * (((0#32 : BitVec 32).toInt : ℝ) : EReal) = 1 := by
  rw [ofBits_one, ofBits_two]
  simp

/-- The sign factor 1 - 2t at the label 1 is -1. -/
theorem sign_one : Ideal.ofBits .f32 0x3F800000#32 - Ideal.ofBits .f32 0x40000000#32 * (((1#32 : BitVec 32).toInt : ℝ) : EReal) = -1 := by
  rw [ofBits_one, ofBits_two]
  have h : ((1#32 : BitVec 32).toInt : ℝ) = 1 := by norm_num [BitVec.toInt]
  rw [h, ← EReal.coe_mul, ← EReal.coe_one, ← EReal.coe_sub, ← EReal.coe_neg]
  norm_num

/-- With the sign factor known the kernel's element is the negated softplus of the signed logit. -/
theorem kernelElem_of_sign (x : EReal) (t : BitVec 32) (σ : EReal)
    (hσ : Ideal.ofBits .f32 0x3F800000#32 - Ideal.ofBits .f32 0x40000000#32 * ((t.toInt : ℝ) : EReal) = σ) :
    kernelElem x t = -(softplus (x * σ)) := by
  unfold kernelElem softplus
  rw [hσ, cmp_ne_self .one (.inl rfl), ValueIdx.select_zero, Ideal.ofBits_zero_f32, sub_zero, zero_sub, zero_sub]

/-- On a binary label the kernel's element is the loss's element. -/
theorem kernelElem_eq (x : EReal) (t : BitVec 32) (ht : t = 0#32 ∨ t = 1#32) : kernelElem x t = elem x t := by
  rcases ht with rfl | rfl
  · rw [kernelElem_of_sign x _ 1 sign_zero, mul_one]; rfl
  · rw [kernelElem_of_sign x _ (-1) sign_one, mul_neg, mul_one]
    unfold elem
    rw [if_neg (by decide)]

/-! ## The mean: dividing and negating in either order -/

/-- Over a nonzero real divisor the quotient of a negation is the negation of the quotient. -/
theorem div_neg_left (s : EReal) {d : ℝ} (hd : d ≠ 0) : Ideal.div (-s) (d : EReal) = -(Ideal.div s (d : EReal)) := by
  rw [Ideal.div_coe hd, Ideal.div_coe hd, neg_mul]

/-! ## The total, grouped by row blocks -/

/-- A sum over 8192 rows is the sum over 32 blocks of the sums over each block's 256 rows. -/
theorem sum_rows {M : Type*} [AddCommMonoid M] (g : Fin 8192 → M) :
    ∑ p : Fin 8192, g p = ∑ b : Fin 32, ∑ r : Fin 256, g ⟨256 * b.val + r.val, by have := b.isLt; have := r.isLt; omega⟩ := by
  rw [← Fintype.sum_prod_type (f := fun x : Fin 32 × Fin 256 => g ⟨256 * x.1.val + x.2.val, by have := x.1.isLt; have := x.2.isLt; omega⟩)]
  refine (Fintype.sum_equiv (finProdFinEquiv : Fin 32 × Fin 256 ≃ Fin 8192) _ _ (fun x => ?_)).symm
  refine congrArg g (Fin.ext ?_)
  show 256 * x.1.val + x.2.val = x.2.val + 256 * x.1.val
  omega

/-- Row r of row block b, as a row of the whole array. -/
abbrev row (b : Fin 32) (r : Fin 256) : Fin 8192 := ⟨256 * b.val + r.val, by have := b.isLt; have := r.isLt; omega⟩

/-- The total of an element function e over row block b: its 256 rows, 8192 lanes each. -/
def blockSum (e : EReal → BitVec 32 → EReal) (x : (⟨2, ![8192, 8192]⟩ : Shape).Idx → EReal)
    (t : (⟨2, ![8192, 8192]⟩ : Shape).Idx → BitVec 32) (b : Fin 32) : EReal :=
  ∑ r : Fin 256, ∑ l : Fin 8192, e (x (ValueIdx.ix2 (row b r) l)) (t (ValueIdx.ix2 (row b r) l))

/-- The same indexed by a natural number, zero past the last block. -/
def blockSumN (e : EReal → BitVec 32 → EReal) (x : (⟨2, ![8192, 8192]⟩ : Shape).Idx → EReal)
    (t : (⟨2, ![8192, 8192]⟩ : Shape).Idx → BitVec 32) (b : ℕ) : EReal :=
  if h : b < 32 then blockSum e x t ⟨b, h⟩ else 0

theorem blockSumN_of_lt (e : EReal → BitVec 32 → EReal) (x : (⟨2, ![8192, 8192]⟩ : Shape).Idx → EReal)
    (t : (⟨2, ![8192, 8192]⟩ : Shape).Idx → BitVec 32) (b : ℕ) (h : b < 32) : blockSumN e x t b = blockSum e x t ⟨b, h⟩ :=
  dif_pos h

/-- The whole array's total is the sum of the 32 block totals. -/
theorem total_eq_blocks (e : EReal → BitVec 32 → EReal) (x : (⟨2, ![8192, 8192]⟩ : Shape).Idx → EReal)
    (t : (⟨2, ![8192, 8192]⟩ : Shape).Idx → BitVec 32) :
    ∑ i : (⟨2, ![8192, 8192]⟩ : Shape).Idx, e (x i) (t i) = ∑ b : Fin 32, blockSum e x t b := by
  rw [ValueIdx.sum_idx2, sum_rows]
  rfl

/-- The two cores' totals, blocks 0 to 15 and blocks 16 to 31, add up to the whole array's total. -/
theorem cores_total (e : EReal → BitVec 32 → EReal) (x : (⟨2, ![8192, 8192]⟩ : Shape).Idx → EReal)
    (t : (⟨2, ![8192, 8192]⟩ : Shape).Idx → BitVec 32) :
    (∑ b ∈ Finset.Ico 0 16, blockSumN e x t b) + (∑ b ∈ Finset.Ico 16 32, blockSumN e x t b)
      = ∑ i : (⟨2, ![8192, 8192]⟩ : Shape).Idx, e (x i) (t i) := by
  rw [Finset.sum_Ico_consecutive _ (by norm_num) (by norm_num), Nat.Ico_zero_eq_range, Finset.sum_range, total_eq_blocks]
  exact Finset.sum_congr rfl fun b _ => blockSumN_of_lt e x t b.val b.isLt

/-- A sum over a [2, 1, 1] array of a function of the leading coordinate is the sum of its two values. -/
theorem sum_cores {M : Type*} [AddCommMonoid M] (f : Fin 2 → M) :
    ∑ i : (⟨3, ![2, 1, 1]⟩ : Shape).Idx, f (i 0) = f 0 + f 1 := by
  let e : Fin 2 ≃ (⟨3, ![2, 1, 1]⟩ : Shape).Idx :=
    { toFun := fun c => ValueIdx.ix3 c (0 : Fin 1) (0 : Fin 1)
      invFun := fun i => i 0
      left_inv := fun _ => rfl
      right_inv := fun i => funext fun a => Fin.ext (by
        match a with
        | ⟨0, _⟩ => rfl
        | ⟨1, _⟩ => have h : (i 1).val < 1 := (i 1).isLt; show 0 = (i 1).val; omega
        | ⟨2, _⟩ => have h : (i 2).val < 1 := (i 2).isLt; show 0 = (i 2).val; omega) }
  rw [← Fin.sum_univ_two f]
  exact (Fintype.sum_equiv e _ _ fun _ => rfl).symm

/-! ## The loss, and the kernel's arrangement of it -/

/-- The loss: minus the mean, over all 2^26 elements, of the signed element losses. -/
def loss (x : (⟨2, ![8192, 8192]⟩ : Shape).Idx → EReal) (t : (⟨2, ![8192, 8192]⟩ : Shape).Idx → BitVec 32) : EReal :=
  -(Ideal.div (∑ i : (⟨2, ![8192, 8192]⟩ : Shape).Idx, elem (x i) (t i)) (Ideal.ofBits .f32 0x4C800000#32))

/-- The kernel's arrangement: each core totals its 16 row blocks of the kernel's element; the host adds the two core
    totals to zero, negates, and divides by the count. -/
def kernelLoss (x : (⟨2, ![8192, 8192]⟩ : Shape).Idx → EReal) (t : (⟨2, ![8192, 8192]⟩ : Shape).Idx → BitVec 32) : EReal :=
  Ideal.div (-(Ideal.ofBits .f32 0x00000000#32
      + ((∑ b ∈ Finset.Ico 0 16, blockSumN kernelElem x t b) + (∑ b ∈ Finset.Ico 16 32, blockSumN kernelElem x t b))))
    (Ideal.ofBits .f32 0x4C800000#32)

/-- On binary labels the kernel's arrangement is the loss. -/
theorem kernelLoss_eq (x : (⟨2, ![8192, 8192]⟩ : Shape).Idx → EReal) (t : (⟨2, ![8192, 8192]⟩ : Shape).Idx → BitVec 32)
    (ht : ∀ i, t i = 0#32 ∨ t i = 1#32) : kernelLoss x t = loss x t := by
  unfold kernelLoss loss
  rw [cores_total, Ideal.ofBits_zero_f32, zero_add, ofBits_count, div_neg_left _ (by norm_num)]
  exact congrArg (fun s => -(Ideal.div s _)) (Finset.sum_congr rfl fun i _ => kernelElem_eq _ _ (ht i))

end Cert.Bce

end
-- ==== Proof.Labels.lean ====
/-
  What the precondition says of the labels: every entry of the integer array is 0 or 1.

  The precondition is the conjunction of two "for all elements" tests, each an and-reduction over the whole array
  from the constant true. The second tests, element by element, "label = 0 or label = 1". A conjunction that is
  true has both parts true; an and-reduction that is true met only true elements; and an equality test of two words
  that is true has equal words. So the second conjunct, read back, is the statement that each label is the word 0 or
  the word 1. It does not depend on how floats are read.
-/
import proofs.«427699_j50483045597972_4_alg».proof.Pre_finite_inputs
import Idealize.ShloMosaic.Lib.ReduceAll
import Idealize.ShloMosaic.Lib.StableHlo.Predicate
import Idealize.ShloMosaic.Lib.ValueIdx

noncomputable section

namespace Cert.Bce

open Idealize.ShloMosaic Cert.Pre_finite_inputs

instance : Subsingleton Cert.Pre_finite_inputs.S_.Idx := ⟨fun a b => funext fun d => d.elim0⟩

/-- Under the precondition every label is 0 or 1. -/
theorem binary_of_pre {F : FTy → Type} [FloatOps F] [Cert.Pre_finite_inputs.Facts]
    (x : FVec F Cert.Pre_finite_inputs.S8192x8192 .f32) (t : IVec Cert.Pre_finite_inputs.S8192x8192 32)
    (h : Cert.Pre_finite_inputs.fn (F := F) x t = fun _ => 1#1) (i : Cert.Pre_finite_inputs.S8192x8192.Idx) :
    t i = 0#32 ∨ t i = 1#32 := by
  have h0 := congrFun h ValueIdx.ix0
  dsimp only [Cert.Pre_finite_inputs.fn] at h0
  obtain ⟨-, h9⟩ := IntOp.andi_eq_one.1 h0
  have hi := Host.reduce_andi_all _ _ _ _ _ h9 i
  rcases IntOp.ori_eq_one.1 hi with h5 | h7
  · left
    have := StableHlo.Predicate.cmpi_eq_iff.1 h5
    rw [this]
    exact StableHlo.Predicate.bcast_scalar _ Facts.h_S_ _ _
  · right
    have := StableHlo.Predicate.cmpi_eq_iff.1 h7
    rw [this]
    exact StableHlo.Predicate.bcast_scalar _ Facts.h_S_ _ _

end Cert.Bce

end
-- ==== Proof.RefValue.lean ====
/-
  The reference's result is the loss.

  The reference computes two softplus arrays, of -x and of x, negates each, selects per element on "label = 0"
  (the negated softplus of x for the label 0, of -x otherwise), sums the selection over the whole array from zero,
  divides by the count 2^26 and negates. Element by element the selection is the signed element loss; the sum from
  zero is the plain total; so the result, at its one index, is the loss.
-/
import proofs.«427699_j50483045597972_4_alg».proof.Proof.Gen.ReferenceIdeal.Read
import proofs.«427699_j50483045597972_4_alg».proof.Proof.Elem
import Idealize.ShloMosaic.Lib.StableHlo.Predicate

noncomputable section

namespace Cert.Bce.Ref

open Idealize.ShloMosaic Cert.ReferenceIdeal Cert.ReferenceIdeal.Read Cert.Bce

/-- The softplus call on x, at an element: the guarded softplus of that element. -/
theorem softplus_pos (x0 : (⟨S8192x8192, .f32⟩ : BufTy).Contents (Elt Ideal)) (i : S8192x8192.Idx) :
    val_main_v3 (F := Ideal) x0 i = softplusGuarded .une (.inr rfl) (x0 i) := by
  rw [val_main_v3_apply, val_main_call1_v4_apply, val_main_call1_v6_apply, val_main_call1_v11_apply, val_main_call1_v1_apply,
    val_main_call1_v10_apply, val_main_call1_v9_apply, val_main_call1_v8_apply, val_main_call1_v7_apply, val_main_call1_v3_apply,
    val_main_call1_v0_apply, val_main_call1_v2_apply, val_main_call1_v5_apply]
  rfl

/-- The softplus call on -x, at an element: the guarded softplus of the negated element. -/
theorem softplus_neg (x0 : (⟨S8192x8192, .f32⟩ : BufTy).Contents (Elt Ideal)) (i : S8192x8192.Idx) :
    val_main_v1 (F := Ideal) x0 i = softplusGuarded .une (.inr rfl) (-(x0 i)) := by
  rw [val_main_v1_apply, val_main_call0_v4_apply, val_main_call0_v6_apply, val_main_call0_v11_apply, val_main_call0_v1_apply,
    val_main_call0_v10_apply, val_main_call0_v9_apply, val_main_call0_v8_apply, val_main_call0_v7_apply, val_main_call0_v3_apply,
    val_main_call0_v0_apply, val_main_call0_v2_apply, val_main_call0_v5_apply, val_main_v0_apply]
  rfl

/-- The selection, at an element, is the signed element loss. -/
theorem select_eq_elem (x0 : (⟨S8192x8192, .f32⟩ : BufTy).Contents (Elt Ideal)) (x1 : (⟨S8192x8192, .i32⟩ : BufTy).Contents (Elt Ideal))
    (i : S8192x8192.Idx) : val_main_v7 (F := Ideal) x0 x1 i = elem (x0 i) (x1 i) := by
  rw [val_main_v7_apply, val_main_v6_apply, val_main_v5_apply, val_main_c_apply, val_main_v4_apply, val_main_v2_apply, softplus_pos,
    softplus_neg, softplusGuarded_eq, softplusGuarded_eq]
  unfold elem
  by_cases h : x1 i = 0#32
  · rw [if_pos h, StableHlo.Predicate.cmpi_eq_iff.2 h, ValueIdx.select_one]; rfl
  · rw [if_neg h, ValueIdx.eq_zero_of_ne_one (fun e => h (StableHlo.Predicate.cmpi_eq_iff.1 e)), ValueIdx.select_zero]; rfl

/-- The reference's result array holds the loss at its one index. -/
theorem result_eq (x0 : (⟨S8192x8192, .f32⟩ : BufTy).Contents (Elt Ideal)) (x1 : (⟨S8192x8192, .i32⟩ : BufTy).Contents (Elt Ideal)) :
    val_main_v10 (F := Ideal) x0 x1 = fun _ => loss x0 x1 := by
  funext i
  rw [val_main_v10_apply, val_main_v9_apply, val_main_v8_apply, val_main_cst_apply, val_main_cst_0_apply]
  simp only [select_eq_elem]
  show -(Ideal.div (Ideal.ofBits .f32 0x00000000#32 + ∑ j : S8192x8192.Idx, elem (x0 j) (x1 j)) (Ideal.ofBits .f32 0x4C800000#32)) = _
  rw [Ideal.ofBits_zero_f32, zero_add]
  rfl

end Cert.Bce.Ref

end
-- ==== Proof.Pieces.lean ====
/-
  What one grid point leaves behind, case by case, as values.

  The body keeps a one-element accumulator across the points of a core. At a core's first point it stores zero into
  the accumulator and then adds the point's block total to what it reads back, so it leaves "zero plus this block's
  total". At every later point it adds the block total to what the point before left. At a core's last point it
  also copies the accumulator, after the addition, into the core's one-element output block.

  Each of these is one store (or a reset followed by one store) that covers the whole one-element buffer, so the
  buffer's contents afterwards are the stored value; the loads inside that value read whole buffers, so they return
  the buffers' contents, and the load of the accumulator after a store returns what was just stored.
-/
import proofs.«427699_j50483045597972_4_alg».proof.Proof.Gen.KernelIdeal.Frame
import Idealize.ShloMosaic.Lib.Pipeline.Value
import Idealize.ShloMosaic.Lib.Tactic

noncomputable section

namespace Cert.Bce.Kernel

open Idealize.ShloMosaic Idealize.ShloMosaic.TcCoe Idealize.SL.Sem
open Idealize.ShloMosaic.Pipeline (Dat)
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A core's first point leaves in the accumulator: the block's total added to the zero it has just stored. -/
theorem acc_first (c : Dev nD) (i : grid0.Coords) (arg2 : Memref sig .tc .vmem S256x8192 .f32) (harg2 : arg2.IsWhole)
    (arg3 : Memref sig .tc .vmem S256x8192 .i32) (harg3 : arg3.IsWhole) (arg4 : Memref sig .tc .vmem S1x1x1 .f32) (harg4 : arg4.IsWhole)
    (arg5 : Memref sig .tc .vmem S1x1 .f32) (harg5 : arg5.IsWhole) (hc0 : cond0_0 i) (hc1 : ¬cond0_1 i)
    (x0 : Vec F S256x8192 .f32) (x1 : Vec F S256x8192 .i32) :
    sout0_A_0 c i arg2 harg2 arg3 harg3 arg4 harg4 arg5 harg5 hc0 hc1 x0 x1 = k0_pay3 x0 x1 (k0_pay2 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1x1) hz2, View.readCov_unit_zero (S := S1x1) _ hz2]
  simp only [View.readAt_eq_ld, harg2.read_unread, harg3.read_unread, View.ld_unit_zero (S := S256x8192) hz2]

/-- A middle point leaves in the accumulator: the block's total added to what the point before left. -/
theorem acc_middle (c : Dev nD) (i : grid0.Coords) (arg2 : Memref sig .tc .vmem S256x8192 .f32) (harg2 : arg2.IsWhole)
    (arg3 : Memref sig .tc .vmem S256x8192 .i32) (harg3 : arg3.IsWhole) (arg4 : Memref sig .tc .vmem S1x1x1 .f32) (harg4 : arg4.IsWhole)
    (arg5 : Memref sig .tc .vmem S1x1 .f32) (harg5 : arg5.IsWhole) (hc0 : ¬cond0_0 i) (hc1 : ¬cond0_1 i)
    (x0 : Vec F S256x8192 .f32) (x1 : Vec F S256x8192 .i32) (xs0 : Vec F S1x1 .f32) :
    sout0_B_0 c i arg2 harg2 arg3 harg3 arg4 harg4 arg5 harg5 hc0 hc1 x0 x1 xs0 = k0_pay3 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz2]
  simp only [View.readAt_eq_ld, harg2.read_unread, harg3.read_unread, harg5.read_unread, View.ld_unit_zero (S := S256x8192) hz2,
    View.ld_unit_zero (S := S1x1) hz2]

/-- A core's last point leaves the same in the accumulator, -/
theorem acc_last (c : Dev nD) (i : grid0.Coords) (arg2 : Memref sig .tc .vmem S256x8192 .f32) (harg2 : arg2.IsWhole)
    (arg3 : Memref sig .tc .vmem S256x8192 .i32) (harg3 : arg3.IsWhole) (arg4 : Memref sig .tc .vmem S1x1x1 .f32) (harg4 : arg4.IsWhole)
    (arg5 : Memref sig .tc .vmem S1x1 .f32) (harg5 : arg5.IsWhole) (hc0 : ¬cond0_0 i) (hc1 : cond0_1 i)
    (x0 : Vec F S256x8192 .f32) (x1 : Vec F S256x8192 .i32) (xs0 : Vec F S1x1 .f32) :
    sout0_C_0 c i arg2 harg2 arg3 harg3 arg4 harg4 arg5 harg5 hc0 hc1 x0 x1 xs0 = k0_pay3 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz2]
  simp only [View.readAt_eq_ld, harg2.read_unread, harg3.read_unread, harg5.read_unread, View.ld_unit_zero (S := S256x8192) hz2,
    View.ld_unit_zero (S := S1x1) hz2]

/-- and in the core's output block that accumulator value, re-shaped to the block's three unit axes. -/
theorem out_last (c : Dev nD) (i : grid0.Coords) (arg2 : Memref sig .tc .vmem S256x8192 .f32) (harg2 : arg2.IsWhole)
    (arg3 : Memref sig .tc .vmem S256x8192 .i32) (harg3 : arg3.IsWhole) (arg4 : Memref sig .tc .vmem S1x1x1 .f32) (harg4 : arg4.IsWhole)
    (arg5 : Memref sig .tc .vmem S1x1 .f32) (harg5 : arg5.IsWhole) (hc0 : ¬cond0_0 i) (hc1 : cond0_1 i)
    (x0 : Vec F S256x8192 .f32) (x1 : Vec F S256x8192 .i32) (xs0 : Vec F S1x1 .f32) :
    out0_C_2 c i arg2 harg2 arg3 harg3 arg4 harg4 arg5 harg5 hc0 hc1 x0 x1 xs0 = k0_pay1 (k0_pay3 x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz3, View.readCov_unit_zero (S := S1x1) _ hz2]
  simp only [View.readAt_eq_ld, harg2.read_unread, harg3.read_unread, harg5.read_unread, View.ld_unit_zero (S := S256x8192) hz2,
    View.ld_unit_zero (S := S1x1) hz2]

end Cert.Bce.Kernel

end
-- ==== Proof.Payload.lean ====
/-
  The body's three stored values, read over the extended reals.

  The value the body adds into the accumulator is the block's total: the signed element losses of the 256 x 8192
  block are summed along the lanes (one sum per row), the 256 row sums are stood up as a column and summed, and the
  one number that results is re-shaped to the accumulator's 1 x 1 form. Read at the accumulator's one index this is
  the previous accumulator value plus the double sum, over rows and lanes, of the kernel's element.
  The reset stores the constant zero; the copy to the output re-shapes the 1 x 1 value to 1 x 1 x 1.
-/
import proofs.«427699_j50483045597972_4_alg».proof.Proof.Gen.KernelIdeal.Skeleton
import proofs.«427699_j50483045597972_4_alg».proof.Proof.Elem
import Idealize.ShloMosaic.Lib.Pipeline.Value
import Idealize.ShloMosaic.Lib.ValueLayout
import Idealize.ShloMosaic.PureOps.Ideal.Laws

noncomputable section

namespace Cert.Bce.Kernel

open Idealize.ShloMosaic Idealize.ShloMosaic.ValueIdx Cert.KernelIdeal Cert.KernelIdeal.Gen Cert.Bce

/-- The sum along the lanes, at row r: the sum over the 8192 lanes of that row's entries. -/
theorem laneSum_apply (v : FVec Ideal S256x8192 .f32) (hφ : FKind.Formats .f32)
    (hacc : (0x00000000#32 : BitVec 32) = FKind.add.neutral .f32 hφ) (r : Fin 256) :
    multiReduction .add [1] S256 v 0x00000000#32 reduces_S256x8192_S256 hφ hacc (ix1 r) = ∑ l : Fin 8192, v (ix2 r l) :=
  (Ideal.multiReduction_add_single v _ reduces_S256x8192_S256 hφ hacc (ix1 r)).trans
    (Finset.sum_congr rfl fun l _ => congrArg v (funext fun a => Fin.ext (by match a with | ⟨0, _⟩ => rfl | ⟨1, _⟩ => rfl)))

/-- The sum down a column of 256 entries: the sum over the rows. -/
theorem rowSum_apply (w : FVec Ideal S256x1 .f32) (hφ : FKind.Formats .f32)
    (hacc : (0x00000000#32 : BitVec 32) = FKind.add.neutral .f32 hφ) :
    multiReduction .add [0] S1 w 0x00000000#32 reduces_S256x1_S1 hφ hacc (ix1 (0 : Fin 1)) = ∑ r : Fin 256, w (ix2 r (0 : Fin 1)) :=
  (Ideal.multiReduction_add_single w _ reduces_S256x1_S1 hφ hacc (ix1 (0 : Fin 1))).trans
    (Finset.sum_congr rfl fun r _ => congrArg w (funext fun a => Fin.ext (by match a with | ⟨0, _⟩ => rfl | ⟨1, _⟩ => rfl)))

/-- A vector of 256 entries stood up as a 256 x 1 column reads, at (r, 0), its entry r. -/
theorem column_apply (u : FVec Ideal S256 .f32) (r : Fin 256) :
    shapeCast S256x1 u shapeCasts_S256_S256x1 (ix2 r (0 : Fin 1)) = u (ix1 r) :=
  shapeCast_apply u _ _ _ (by
    rw [Shape.rowMajor_val_one, Shape.rowMajor_val_two]
    show r.val = r.val * 1 + 0
    omega)

/-- The accumulator's new value, at its one index: its old value plus the block's total of the kernel's element. -/
theorem accumulate_apply (x0 : FVec Ideal S256x8192 .f32) (x1 : IVec S256x8192 32) (acc : FVec Ideal S1x1 .f32) :
    k0_pay3 (F := Ideal) x0 x1 acc (ix2 (0 : Fin 1) (0 : Fin 1))
      = acc (ix2 (0 : Fin 1) (0 : Fin 1)) + ∑ r : Fin 256, ∑ l : Fin 8192, kernelElem (x0 (ix2 r l)) (x1 (ix2 r l)) := by
  unfold k0_pay3
  dsimp only
  rw [shapeCast_self, addf_apply]
  refine congrArg (fun z => acc (ix2 (0 : Fin 1) (0 : Fin 1)) + z) ?_
  refine (shapeCast_a_1a_apply _ shapeCasts_S1_S1x1 (0 : Fin 1) (0 : Fin 1)).trans ?_
  refine (rowSum_apply _ _ _).trans ?_
  refine Finset.sum_congr rfl fun r _ => ?_
  refine (column_apply _ r).trans ?_
  refine (laneSum_apply _ _ _ r).trans ?_
  rfl

/-- The reset value is zero. -/
theorem reset_apply : (k0_pay2 (F := Ideal)) (ix2 (0 : Fin 1) (0 : Fin 1)) = 0 := by
  unfold k0_pay2
  rw [shapeCast_self]
  exact Ideal.ofBits_zero_f32

/-- The copy to the output block, at its one index, is the accumulator's one entry. -/
theorem copy_apply (v : FVec Ideal S1x1 .f32) :
    k0_pay1 (F := Ideal) v (ix3 (0 : Fin 1) (0 : Fin 1) (0 : Fin 1)) = v (ix2 (0 : Fin 1) (0 : Fin 1)) := by
  unfold k0_pay1
  exact shapeCast_ab_1ab_apply v shapeCasts_S1x1_S1x1x1 (0 : Fin 1) (0 : Fin 1) (0 : Fin 1)

end Cert.Bce.Kernel

end
-- ==== Proof.Blocks.lean ====
/-
  The input blocks as pieces of the whole arrays.

  Grid point t (core t / 16, step t % 16) reads row block t of both inputs: rows 256 t to 256 t + 255, all 8192
  lanes. So the double sum, over the rows and lanes of the point's two blocks, of the kernel's element is the block
  sum number t of the two whole arrays.
-/
import proofs.«427699_j50483045597972_4_alg».proof.Proof.Gen.KernelIdeal.Frame
import proofs.«427699_j50483045597972_4_alg».proof.Proof.Elem
import Idealize.ShloMosaic.Lib.Pipeline.Value

noncomputable section

namespace Cert.Bce.Kernel

open Idealize.ShloMosaic Idealize.ShloMosaic.TcCoe Idealize.SL.Sem Idealize.ShloMosaic.ValueIdx
open Cert.KernelIdeal Cert.KernelIdeal.Gen Cert.Bce

variable (m : (ℓ : Loc nD τ sig) → Buf (Elt Ideal) ℓ)

/-- The logits and the labels, as the region finds them. -/
abbrev xarr (c : Dev nD) : FVec Ideal S8192x8192 .f32 := V m c main_arg0
abbrev tarr (c : Dev nD) : IVec S8192x8192 32 := V m c main_arg1

/-- The two blocks grid point t works on. -/
abbrev xblk (c : Dev nD) (t : Fin cfg0.N) : FVec Ideal S256x8192 .f32 := iblk m c 0 t
abbrev tblk (c : Dev nD) (t : Fin cfg0.N) : IVec S256x8192 32 := iblk m c 1 t

/-- Both input windows sit, at point t, on block row t and block column 0. -/
theorem idx_in : ∀ t : Fin cfg0.N,
    win0_0.index t 0 = t.val ∧ win0_0.index t 1 = 0 ∧ win0_1.index t 0 = t.val ∧ win0_1.index t 1 = 0 :=
  (by decide +kernel : ∀ t : Fin grid0.N,
    win0_0.index t 0 = t.val ∧ win0_0.index t 1 = 0 ∧ win0_1.index t 0 = t.val ∧ win0_1.index t 1 = 0)

theorem lt_N (t : Fin cfg0.N) : t.val < 32 := lt_of_lt_of_eq t.isLt (show cfg0.N = 32 from N_0)

/-- Entry (r, l) of the logits' block at point t is entry (256 t + r, l) of the logits. -/
theorem xblk_apply (c : Dev nD) (t : Fin cfg0.N) (r : Fin 256) (l : Fin 8192) :
    xblk m c t (ix2 r l) = xarr m c (ix2 (row ⟨t.val, lt_N t⟩ r) l) := by
  show iblk m c 0 t (ix2 r l) = V m c main_arg0 (ix2 (row ⟨t.val, lt_N t⟩ r) l)
  unfold iblk
  rw [View.read_apply]
  show V m c main_arg0 _ = V m c main_arg0 _
  congr 1
  funext a
  apply Fin.ext
  match a with
  | ⟨0, _⟩ => show win0_0.index t 0 * 256 + 1 * r.val = 256 * t.val + r.val; rw [(idx_in t).1]; omega
  | ⟨1, _⟩ => show win0_0.index t 1 * 8192 + 1 * l.val = l.val; rw [(idx_in t).2.1]; omega

/-- Entry (r, l) of the labels' block at point t is entry (256 t + r, l) of the labels. -/
theorem tblk_apply (c : Dev nD) (t : Fin cfg0.N) (r : Fin 256) (l : Fin 8192) :
    tblk m c t (ix2 r l) = tarr m c (ix2 (row ⟨t.val, lt_N t⟩ r) l) := by
  show iblk m c 1 t (ix2 r l) = V m c main_arg1 (ix2 (row ⟨t.val, lt_N t⟩ r) l)
  unfold iblk
  rw [View.read_apply]
  show V m c main_arg1 _ = V m c main_arg1 _
  congr 1
  funext a
  apply Fin.ext
  match a with
  | ⟨0, _⟩ => show win0_1.index t 0 * 256 + 1 * r.val = 256 * t.val + r.val; rw [(idx_in t).2.2.1]; omega
  | ⟨1, _⟩ => show win0_1.index t 1 * 8192 + 1 * l.val = l.val; rw [(idx_in t).2.2.2]; omega

/-- The total of the kernel's element over the two blocks of point t is block sum t of the whole arrays. -/
theorem blockTotal_eq (c : Dev nD) (t : Fin cfg0.N) :
    ∑ r : Fin 256, ∑ l : Fin 8192, kernelElem (xblk m c t (ix2 r l)) (tblk m c t (ix2 r l))
      = blockSumN kernelElem (xarr m c) (tarr m c) t.val := by
  rw [blockSumN_of_lt _ _ _ _ (lt_N t)]
  unfold blockSum
  exact Finset.sum_congr rfl fun r _ => Finset.sum_congr rfl fun l _ => by rw [xblk_apply, tblk_apply]

end Cert.Bce.Kernel

end
-- ==== Proof.Accum.lean ====
/-
  The accumulator along a core's sixteen points: a running sum of block sums.

  After the core's first point (t % 16 = 0) the accumulator holds that block's sum (added to the zero just stored).
  After any later point it holds what the point before left plus this point's block sum. By induction on the point,
  after point n it holds the sum of the block sums from the first point of n's core, 16 (n / 16), up to n.
-/
import proofs.«427699_j50483045597972_4_alg».proof.Proof.Pieces
import proofs.«427699_j50483045597972_4_alg».proof.Proof.Payload
import proofs.«427699_j50483045597972_4_alg».proof.Proof.Blocks

noncomputable section

namespace Cert.Bce.Kernel

open Idealize.ShloMosaic Idealize.ShloMosaic.TcCoe Idealize.SL.Sem Idealize.ShloMosaic.ValueIdx
open Cert.KernelIdeal Cert.KernelIdeal.Gen Cert.Bce

variable (m : (ℓ : Loc nD τ sig) → Buf (Elt Ideal) ℓ)

/-- The accumulator's one entry after the body at point n. -/
abbrev accAt (c : Dev nD) (n : ℕ) (h : n < cfg0.N) : EReal := (outsAt0 m c n h).2 (ix2 (0 : Fin 1) (0 : Fin 1))

/-- After a core's first point: that point's block sum. -/
theorem step_first (c : Dev nD) (t : Fin cfg0.N) (h0 : t.val % 16 = 0) (h1 : ¬t.val % 16 = 15) :
    accAt m c t.val t.isLt = blockSumN kernelElem (xarr m c) (tarr m c) t.val := by
  show (outsAt0 m c t.val t.isLt).2 (ix2 (0 : Fin 1) (0 : Fin 1)) = _
  rw [outsAt0_A m c t h0 h1]
  dsimp only
  refine (congrFun (acc_first (F := Ideal) c (grid0.coords t) (ms0_0 t) (hs0_0 t) (ms0_1 t) (hs0_1 t) (ms0_2 t) (hs0_2 t) scM0_0 (Memref.isWhole_whole _)
    ((hcond0_0 t).mpr h0) (fun h => h1 ((hcond0_1 t).mp h)) (xblk m c t) (tblk m c t)) (ix2 (0 : Fin 1) (0 : Fin 1))).trans ?_
  refine (accumulate_apply (xblk m c t) (tblk m c t) (k0_pay2 (F := Ideal))).trans ?_
  rw [reset_apply, zero_add, blockTotal_eq]

/-- After any later point: what the point before left, plus this point's block sum. -/
theorem step_next (c : Dev nD) (t : Fin cfg0.N) (h0 : ¬t.val % 16 = 0) :
    accAt m c t.val t.isLt
      = accAt m c (t.val - 1) (Nat.lt_of_le_of_lt (Nat.sub_le _ _) t.isLt) + blockSumN kernelElem (xarr m c) (tarr m c) t.val := by
  show (outsAt0 m c t.val t.isLt).2 (ix2 (0 : Fin 1) (0 : Fin 1)) = _
  by_cases h1 : t.val % 16 = 15
  · rw [outsAt0_C m c t h0 h1]
    dsimp only
    refine (congrFun (acc_last (F := Ideal) c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h1) (xblk m c t) (tblk m c t)
      (outsAt0 m c (t.val - 1) (Nat.lt_of_le_of_lt (Nat.sub_le _ _) t.isLt)).2) (ix2 (0 : Fin 1) (0 : Fin 1))).trans ?_
    refine (accumulate_apply (xblk m c t) (tblk m c t) _).trans ?_
    rw [blockTotal_eq]
  · rw [outsAt0_B m c t h0 h1]
    dsimp only
    refine (congrFun (acc_middle (F := Ideal) c (grid0.coords t) (ms0_0 t) (hs0_0 t) (ms0_1 t) (hs0_1 t) (ms0_2 t) (hs0_2 t) scM0_0 (Memref.isWhole_whole _)
      (fun h => h0 ((hcond0_0 t).mp h)) (fun h => h1 ((hcond0_1 t).mp h)) (xblk m c t) (tblk m c t)
      (outsAt0 m c (t.val - 1) (Nat.lt_of_le_of_lt (Nat.sub_le _ _) t.isLt)).2) (ix2 (0 : Fin 1) (0 : Fin 1))).trans ?_
    refine (accumulate_apply (xblk m c t) (tblk m c t) _).trans ?_
    rw [blockTotal_eq]

/-- The sum of the block sums from the first block of n's core up to block n. -/
def partialSum (c : Dev nD) (n : ℕ) : EReal :=
  ∑ b ∈ Finset.Ico (n / 16 * 16) (n + 1), blockSumN kernelElem (xarr m c) (tarr m c) b

/-- The accumulator after point n holds the partial sum up to n. -/
theorem accAt_eq (c : Dev nD) : ∀ (n : ℕ) (h : n < cfg0.N), accAt m c n h = partialSum m c n
  | 0, h => by
    rw [show accAt m c 0 h = _ from step_first m c ⟨0, h⟩ rfl (by show ¬0 % 16 = 15; omega)]
    unfold partialSum
    simp
  | n + 1, h => by
    by_cases h0 : (n + 1) % 16 = 0
    · have h1 : ¬(n + 1) % 16 = 15 := by omega
      rw [show accAt m c (n + 1) h = _ from step_first m c ⟨n + 1, h⟩ h0 h1]
      unfold partialSum
      have e : (n + 1) / 16 * 16 = n + 1 := by omega
      rw [e, Nat.Ico_succ_singleton, Finset.sum_singleton]
    · rw [show accAt m c (n + 1) h = _ from step_next m c ⟨n + 1, h⟩ h0]
      show accAt m c n _ + _ = _
      rw [accAt_eq c n]
      unfold partialSum
      have e : (n + 1) / 16 * 16 = n / 16 * 16 := by omega
      rw [e, Finset.sum_Ico_succ_top (by omega : n / 16 * 16 ≤ n + 1)]

/-- Core k's total: the sum of its sixteen block sums. -/
def coreSum (c : Dev nD) (k : ℕ) : EReal :=
  ∑ b ∈ Finset.Ico (16 * k) (16 * k + 16), blockSumN kernelElem (xarr m c) (tarr m c) b

/-- After a core's last point the accumulator holds the core's total. -/
theorem accAt_last (c : Dev nD) (t : Fin cfg0.N) (h1 : t.val % 16 = 15) : accAt m c t.val t.isLt = coreSum m c (t.val / 16) := by
  rw [accAt_eq]
  unfold partialSum coreSum
  have e1 : t.val / 16 * 16 = 16 * (t.val / 16) := by omega
  have e2 : t.val + 1 = 16 * (t.val / 16) + 16 := by omega
  rw [e1, e2]

end Cert.Bce.Kernel

end
-- ==== Proof.Output.lean ====
/-
  The result array of the kernel: one total per core.

  The output window has one 1 x 1 x 1 block per core, block k at array index (k, 0, 0). It is written back only after
  a core's last point (t % 16 = 15), and what is written is the accumulator's value there: core t / 16's total. The
  two write-backs, at points 15 and 31, cover the two entries of the array, so the array ends holding, at (k, 0, 0),
  core k's total.
-/
import proofs.«427699_j50483045597972_4_alg».proof.Proof.Accum

noncomputable section

namespace Cert.Bce.Kernel

open Idealize.ShloMosaic Idealize.ShloMosaic.TcCoe Idealize.SL.Sem Idealize.ShloMosaic.ValueIdx
open Idealize.ShloMosaic.Pipeline (Dat)
open Cert.KernelIdeal Cert.KernelIdeal.Gen Cert.Bce

variable (m : (ℓ : Loc nD τ sig) → Buf (Elt Ideal) ℓ)

/-- The result array's final contents: at (k, 0, 0), core k's total. -/
def outArr (c : Dev nD) : Buf (Elt Ideal) ((c : Thread nD τ).loc main_v0) :=
  fun (i : S2x1x1.Idx) => coreSum m c (i 0).val

/-- The output window sits, at point t, on block (t / 16, 0, 0), and its blocks are never cut. -/
theorem idx_out : ∀ t : Fin cfg0.N,
    win0_2.index t 0 = t.val / 16 ∧ win0_2.index t 1 = 0 ∧ win0_2.index t 2 = 0
      ∧ win0_2.xsize (grid0.coords t) 0 = 1 ∧ win0_2.xsize (grid0.coords t) 1 = 1 ∧ win0_2.xsize (grid0.coords t) 2 = 1 :=
  (by decide +kernel : ∀ t : Fin grid0.N,
    win0_2.index t 0 = t.val / 16 ∧ win0_2.index t 1 = 0 ∧ win0_2.index t 2 = 0
      ∧ win0_2.xsize (grid0.coords t) 0 = 1 ∧ win0_2.xsize (grid0.coords t) 1 = 1 ∧ win0_2.xsize (grid0.coords t) 2 = 1)

/-- A 1 x 1 x 1 block has one index. -/
theorem unit_idx3 (j : S1x1x1.Idx) : j = ix3 (0 : Fin 1) (0 : Fin 1) (0 : Fin 1) :=
  funext fun a => Fin.ext (by
    match a with
    | ⟨0, _⟩ => have h : (j 0).val < 1 := (j 0).isLt; show (j 0).val = 0; omega
    | ⟨1, _⟩ => have h : (j 1).val < 1 := (j 1).isLt; show (j 1).val = 0; omega
    | ⟨2, _⟩ => have h : (j 2).val < 1 := (j 2).isLt; show (j 2).val = 0; omega)

/-- What a write-back writes is its block of the final contents: core t / 16's total at the block's one index. -/
theorem flushed_eq (c : Dev nD) (t : Fin cfg0.N) (hf : (cfg0.win 2).flush t = true) :
    (dats m 0 c).flushed 2 t = ((cfg0.win 2).blk t).view.read (Elt Ideal) (outArr m c) := by
  have h1 : t.val % 16 = 15 := (flush0_2 t).mp hf
  have h0 : ¬t.val % 16 = 0 := by omega
  funext y
  have hy : ((cfg0.win 2).xinj (grid0.coords t) y : S1x1x1.Idx) = ix3 (0 : Fin 1) (0 : Fin 1) (0 : Fin 1) := unit_idx3 _
  show (cfg0.win 2).cut (grid0.coords t) ((dats m 0 c).after 2 t) y = _
  rw [after0_2]
  show (outsAt0 m c t.val t.isLt).1 ((cfg0.win 2).xinj (grid0.coords t) y) = _
  rw [hy, outsAt0_C m c t h0 h1]
  dsimp only
  refine (congrFun (out_last (F := Ideal) c (grid0.coords t) (ms0_0 t) (hs0_0 t) (ms0_1 t) (hs0_1 t) (ms0_2 t) (hs0_2 t) scM0_0 (Memref.isWhole_whole _)
    (fun h => h0 ((hcond0_0 t).mp h)) ((hcond0_1 t).mpr h1) (xblk m c t) (tblk m c t)
    (outsAt0 m c (t.val - 1) (Nat.lt_of_le_of_lt (Nat.sub_le _ _) t.isLt)).2) (ix3 (0 : Fin 1) (0 : Fin 1) (0 : Fin 1))).trans ?_
  refine (copy_apply _).trans ?_
  refine (accumulate_apply (xblk m c t) (tblk m c t) _).trans ?_
  rw [blockTotal_eq]
  refine (step_next m c t h0).symm.trans ?_
  rw [accAt_last m c t h1, View.read_apply]
  show coreSum m c (t.val / 16) = coreSum m c ((((cfg0.win 2).blk t).view.emb y) 0).val
  congr 1
  have hy0 : (y 0).val < win0_2.xsize (grid0.coords t) 0 := (y 0).isLt
  show t.val / 16 = win0_2.index t 0 * 1 + 1 * (y 0).val
  rw [(idx_out t).1]
  rw [(idx_out t).2.2.2.1] at hy0
  omega

/-- The two write-backs cover the array. -/
theorem covered (c : Dev nD) (i : ((cfg0.win 2).arr.view.loc (c.tc : Thread nD τ)).2.ty.Idx) :
    ∃ t : Fin cfg0.N, (cfg0.win 2).flush t = true ∧ i ∈ ((cfg0.win 2).blk t).view.set := by
  have h0 : (i 0 : Nat) < 2 := (i 0).isLt
  have h1 : (i 1 : Nat) < 1 := (i 1).isLt
  have h2 : (i 2 : Nat) < 1 := (i 2).isLt
  have hN : cfg0.N = 32 := N_0
  refine ⟨⟨16 * (i 0 : Nat) + 15, by omega⟩, (flush0_2 _).mpr (by show (16 * (i 0 : Nat) + 15) % 16 = 15; omega), ?_⟩
  generalize ht : (⟨16 * (i 0 : Nat) + 15, by omega⟩ : Fin cfg0.N) = t
  have hv : t.val = 16 * (i 0 : Nat) + 15 := by rw [← ht]
  show i ∈ ((View.whole main_v0).slice (win0_2.rect t)).set
  rw [View.set_slice_whole, Rect.mem_set_unit]
  intro a
  match a with
  | ⟨0, _⟩ =>
    show win0_2.index t 0 * 1 ≤ (i 0 : Nat) ∧ (i 0 : Nat) < win0_2.index t 0 * 1 + win0_2.xsize (grid0.coords t) 0
    rw [(idx_out t).1, (idx_out t).2.2.2.1]; omega
  | ⟨1, _⟩ =>
    show win0_2.index t 1 * 1 ≤ (i 1 : Nat) ∧ (i 1 : Nat) < win0_2.index t 1 * 1 + win0_2.xsize (grid0.coords t) 1
    rw [(idx_out t).2.1, (idx_out t).2.2.2.2.1]; omega
  | ⟨2, _⟩ =>
    show win0_2.index t 2 * 1 ≤ (i 2 : Nat) ∧ (i 2 : Nat) < win0_2.index t 2 * 1 + win0_2.xsize (grid0.coords t) 2
    rw [(idx_out t).2.2.1, (idx_out t).2.2.2.2.2]; omega

/-- So the result array ends holding the two cores' totals. -/
theorem final_out (c : Dev nD) : (dats m 0 c).arrAt 2 cfg0.N = outArr m c :=
  (dats m 0 c).arrAt_eq_of_cover 2 (outArr m c) (flushed_eq m c) (covered c)

end Cert.Bce.Kernel

end
-- ==== Proof.KernelRun.lean ====
/-
  The kernel program's result.

  After the region the host adds the two entries of the result array to zero, negates the sum, and divides by the
  count 2^26. With the array at the two cores' totals this is the kernel's arrangement of the loss, a function of the
  two argument arrays as the region finds them, which are the arguments themselves. Every weakly fair execution of the
  program ends there, with the arguments unchanged.
-/
import proofs.«427699_j50483045597972_4_alg».proof.Proof.Output
import Idealize.ShloMosaic.Lib.StableHlo.Run

noncomputable section

namespace Cert.Bce.Kernel

open Idealize.ShloMosaic Idealize.ShloMosaic.TcCoe Idealize.SL.Sem Idealize.ShloMosaic.ValueIdx
open Idealize.ShloMosaic.Pipeline (Dat)
open Cert.KernelIdeal Cert.KernelIdeal.Gen Cert.Bce

variable (m : (ℓ : Loc nD τ sig) → Buf (Elt Ideal) ℓ) (ρ : Dev nD → PrngReg)

/-- The kernel program's result buffer: at its one index, the kernel's arrangement of the loss of the two arguments. -/
def kernelResult (c : Dev nD) : Buf (Elt Ideal) ((c.tc : Thread nD τ).loc main_v3) :=
  fun _ => kernelLoss (m ((c.tc : Thread nD τ).loc main_arg0)) (m ((c.tc : Thread nD τ).loc main_arg1))

/-- The result array's final contents as a [2, 1, 1] vector of extended reals. -/
def outVec (c : Dev nD) : FVec Ideal S2x1x1 .f32 := fun i => coreSum m c (i 0).val

theorem outArr_eq (c : Dev nD) : outArr m c = outVec m c := rfl

/-- The sum of the result array's entries is the sum of the two cores' totals. -/
theorem sum_outVec (c : Dev nD) :
    ∑ i : S2x1x1.Idx, outVec m c i
      = (∑ b ∈ Finset.Ico 0 16, blockSumN kernelElem (xarr m c) (tarr m c) b)
        + (∑ b ∈ Finset.Ico 16 32, blockSumN kernelElem (xarr m c) (tarr m c) b) :=
  sum_cores (fun k => coreSum m c k.val)

/-- The host operations after the region, applied to what the region leaves, give the kernel's arrangement of the loss. -/
theorem tail_eq (c : Dev nD) :
    Pipeline.afterTail₀ cfgs (dats m) 0 (V0 m) [hostOps1] c main_v3 = kernelResult m c := by
  unfold Pipeline.afterTail₀
  show StableHlo.after hostOps1 _ (Proc.devRef .tc main_v3) = _
  after_results
  have harr : Pipeline.withArrays (cfgs 0).spec c (V0 m c) (fun w => (dats m 0 c).arrAt w (cfgs 0).N) (Proc.tc.devRef main_v0)
      = outVec m c :=
    ((Pipeline.withArrays_arr spec0 launch0.win.arr_inj c _ _ 2).trans (final_out m c)).trans (outArr_eq m c)
  rw [harr]
  funext j
  have hr : Host.reduceAdd (F := Ideal) (outVec m c) (constant S_ .f32 0x00000000#32) reducesTo_S2x1x1_S_d0_1_2 h_S_ j
      = Ideal.ofBits .f32 0x00000000#32 + ∑ i : S2x1x1.Idx, outVec m c i := by
    simp only [Host.reduceAdd, Ideal.hostReduceAdd_def]
    exact Ideal.hostReduceAdd_total reducesTo_S2x1x1_S_d0_1_2 (fun b => b.elim0) _ _ j
  show Ideal.div (-(Host.reduceAdd (F := Ideal) (outVec m c) (constant S_ .f32 0x00000000#32) reducesTo_S2x1x1_S_d0_1_2 h_S_ j))
      (Ideal.ofBits .f32 0x4C800000#32) = _
  rw [hr, sum_outVec]
  rfl

/-- Every weakly fair execution of the kernel program ends with its result at the kernel's arrangement of the loss and
    its two arguments unchanged. -/
theorem run : θ_run defs (onTc (τ := τ) (main (F := Ideal))) ⟨m, fun _ => 0, ρ⟩ fun r => ∀ c : Dev nD,
      r.2.mem ((c.tc : Thread nD τ).loc main_v3) = kernelResult m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.Bce.Kernel

end
-- ==== Proof.lean ====
/-
  The binary cross-entropy loss of sigmoid(x) against binary labels, computed two ways, is one extended real.

  Both programs compute minus the mean, over the 8192 x 8192 elements, of the signed element loss: -softplus(x) where
  the label is 0 and -softplus(-x) where it is 1, with softplus(v) = max(v, 0) + log(1 + exp(-|v|)).

  The reference forms both softplus arrays, selects on "label = 0", sums everything from zero, divides by 2^26 and
  negates. The kernel forms ONE softplus of the signed logit x * (1 - 2 t): for a label t in {0, 1} the factor is 1 or
  -1, so the signed logit is x or -x on every extended real. It walks 32 row blocks of 256 rows, sixteen per core,
  adding each block's total (lanes first, then rows) into a one-element accumulator that a core resets at its first
  block and copies out after its last; the host then adds the two cores' totals to zero, negates, and divides by 2^26.

  The two totals are the same finite sum in two groupings, sums of extended reals commute and associate, adding to zero
  changes nothing, and for the nonzero divisor 2^26 the quotient of a negation is the negation of the quotient. The
  labels being 0 or 1 is the precondition's second conjunct, read back from its and-reductions. The finiteness of the
  logits is never used.

  The modules: Elem (the element, the constants, the regroupings), Labels (the precondition read back), RefValue (the
  reference's result is the loss), Pieces / Payload / Blocks / Accum / Output / KernelRun (the kernel's result is its
  arrangement of the loss), and the assembly below.
-/
import proofs.«427699_j50483045597972_4_alg».proof.Defs
import proofs.«427699_j50483045597972_4_alg».proof.Proof.Gen.Kernel
import proofs.«427699_j50483045597972_4_alg».proof.Proof.Gen.Kernel.Skeleton
import proofs.«427699_j50483045597972_4_alg».proof.Proof.Gen.Kernel.Launch
import proofs.«427699_j50483045597972_4_alg».proof.Proof.Gen.Kernel.Points
import proofs.«427699_j50483045597972_4_alg».proof.Proof.Gen.Kernel.Frame
import proofs.«427699_j50483045597972_4_alg».proof.Proof.Gen.KernelIdeal
import proofs.«427699_j50483045597972_4_alg».proof.Proof.Gen.KernelIdeal.Skeleton
import proofs.«427699_j50483045597972_4_alg».proof.Proof.Gen.KernelIdeal.Launch
import proofs.«427699_j50483045597972_4_alg».proof.Proof.Gen.KernelIdeal.Points
import proofs.«427699_j50483045597972_4_alg».proof.Proof.Gen.KernelIdeal.Frame
import proofs.«427699_j50483045597972_4_alg».proof.Proof.Gen.ReferenceIdeal
import proofs.«427699_j50483045597972_4_alg».proof.Proof.Gen.Pre_finite_inputs
import proofs.«427699_j50483045597972_4_alg».proof.Proof.Gen.ReferenceIdeal.Run
import proofs.«427699_j50483045597972_4_alg».proof.Proof.Gen.ReferenceIdeal.Read
import proofs.«427699_j50483045597972_4_alg».proof.Proof.Elem
import proofs.«427699_j50483045597972_4_alg».proof.Proof.Labels
import proofs.«427699_j50483045597972_4_alg».proof.Proof.RefValue
import proofs.«427699_j50483045597972_4_alg».proof.Proof.KernelRun
import Idealize.ShloMosaic.Adequacy
import Idealize.ShloMosaic.Init

noncomputable section

namespace Cert.Proof

open Idealize.ShloMosaic Idealize.SL.Sem

/-- The word-level kernel runs, faults nowhere, and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: it runs to its composed term and keeps its arguments. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing of the kernel was rewritten for the reading over the extended reals. -/
theorem preserves : Cert.preserves_Kernel_KernelIdeal := trivial

/-- From arguments that agree, and labels that are 0 or 1, the kernel ends at its arrangement of the loss and the
    reference at the loss, which are equal. -/
theorem algebraic : Cert.algebraic_KernelIdeal_ReferenceIdeal := by
  intro m ρ m' ρ' hpre hagree
  refine ⟨fun c => Cert.Bce.Kernel.kernelResult m c, Cert.Bce.Kernel.run m ρ, ?_⟩
  refine (θ_run Cert.ReferenceIdeal.defs _ _).mono (fun _ h c => ⟨(h c).1.trans ?_, (h c).2⟩)
    (Cert.ReferenceIdeal.Value.run (F := Ideal) m' ρ')
  refine ((Cert.ReferenceIdeal.Read.val_main_v10_eq (F := Ideal) _ _).trans (Cert.Bce.Ref.result_eq _ _)).trans ?_
  rw [(hagree c).1, (hagree c).2]
  funext j
  exact (Cert.Bce.kernelLoss_eq _ _ (fun i => Cert.Bce.binary_of_pre _ _ (hpre c) i)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
